-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x3 : Shape := ⟨2, ![64, 3]⟩
abbrev S3 : Shape := ⟨1, ![3]⟩
abbrev S3x256 : Shape := ⟨2, ![3, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S256x512 .f32) (main_arg9 : FVec F S512 .f32) (main_v33 : IVec S_ 1) : IVec S_ 1 :=
  let main_v34 : FVec F S256x512 .f32 := Host.absf main_arg8
  let main_cst_12 : FVec F S_ .f32 := constant S_ .f32 0x7F800000#32
  let main_v35 : FVec F S256x512 .f32 := broadcastInDim S256x512 ![] bcast_S_S256x512 main_cst_12
  let main_v36 : IVec S256x512 1 := cmpf .olt main_v34 main_v35
  let main_c_13 : IVec S_ 1 := constantI S_ 1 1#1
  let main_v37 : IVec S_ 1 := (fun x v => Host.reduce IntOp.andi x v reducesTo_S256x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S3x256 .f32) (main_arg6 : FVec F S3x256 .f32) (main_arg7 : FVec F S256 .f32) (main_arg8 : FVec F S256x512 .f32) (main_arg9 : FVec F S512 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256 .f32 := Host.absf main_arg6
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x3200000 32) (main_arg2 : FVec F S64x3 .f32) (main_arg3 : FVec F S64x3 .f32) (main_arg4 : FVec F S3 .f32) (main_arg5 : FVec F S3x256 .f32) (main_arg6 : FVec F S3x256 .f32) (main_arg7 : FVec F S256 .f32) (main_arg8 : FVec F S256x512 .f32) (main_arg9 : FVec F S512 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x3 .f32 := Host.absf main_arg2
  let main_cst_0 : FVec F S_ .f32 := constant S_ .f32 0x7F800000#32
  let main_v5 : FVec F S64x3 .f32 := broadcastInDim S64x3 ![] bcast_S_S64x3 main_cst_0
  let main_v6 : IVec S64x3 1 := cmpf .olt main_v4 main_v5
  let main_c_1 : IVec S_ 1 := constantI S_ 1 1#1
  let main_v7 : IVec S_ 1 := (fun x v => Host.reduce IntOp.andi x v reducesTo_S64x3_S_d0_1 h_S_) main_v6 main_c_1
  let main_v8 : IVec S_ 1 := andi main_v3 main_v7
  let main_v9 : FVec F S64x3 .f32 := Host.absf main_arg3
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S3 .f32 := Host.absf main_arg4
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x3200000 : Shape := ⟨2, ![2, 3200000]⟩
abbrev S64x3 : Shape := ⟨2, ![64, 3]⟩
abbrev S3 : Shape := ⟨1, ![3]⟩
abbrev S3x256 : Shape := ⟨2, ![3, 256]⟩
abbrev S256 : Shape := ⟨1, ![256]⟩
abbrev S256x512 : Shape := ⟨2, ![256, 512]⟩
abbrev S512 : Shape := ⟨1, ![512]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S1x3 : Shape := ⟨2, ![1, 3]⟩
abbrev S100000x3 : Shape := ⟨2, ![100000, 3]⟩
abbrev S2000x64 : Shape := ⟨2, ![2000, 64]⟩
abbrev S2000x3 : Shape := ⟨2, ![2000, 3]⟩
abbrev S3200000x3 : Shape := ⟨2, ![3200000, 3]⟩
abbrev S1x256 : Shape := ⟨2, ![1, 256]⟩
abbrev S1x512 : Shape := ⟨2, ![1, 512]⟩
abbrev S100000x512 : Shape := ⟨2, ![100000, 512]⟩
abbrev S2000x512 : Shape := ⟨2, ![2000, 512]⟩
abbrev S2000x256 : Shape := ⟨2, ![2000, 256]⟩

abbrev nBuf : Space → Nat
  | .hbm => 110
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x3, .f32⟩
  | .hbm, ⟨3, _⟩ => ⟨S64x3, .f32⟩
  | .hbm, ⟨4, _⟩ => ⟨S3, .f32⟩
  | .hbm, ⟨5, _⟩ => ⟨S3x256, .f32⟩
  | .hbm, ⟨6, _⟩ => ⟨S3x256, .f32⟩
  | .hbm, ⟨7, _⟩ => ⟨S256, .f32⟩
  | .hbm, ⟨8, _⟩ => ⟨S256x512, .f32⟩
  | .hbm, ⟨9, _⟩ => ⟨S512, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S3200000, .i1⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000, .f32⟩
  | .hbm, ⟨47, _⟩ => ⟨S3200000, .f32⟩
  | .hbm, ⟨48, _⟩ => ⟨S3200000, .f32⟩
  | .hbm, ⟨49, _⟩ => ⟨S_, .i32⟩
  | .hbm, ⟨50, _⟩ => ⟨S3200000, .i32⟩
  | .hbm, ⟨51, _⟩ => ⟨S3200000, .i1⟩
  | .hbm, ⟨52, _⟩ => ⟨S_, .i32⟩
  | .hbm, ⟨53, _⟩ => ⟨S3200000, .i32⟩
  | .hbm, ⟨54, _⟩ => ⟨S3200000, .i32⟩
  | .hbm, ⟨55, _⟩ => ⟨S3200000, .i32⟩
  | .hbm, ⟨56, _⟩ => ⟨S3200000x1, .i32⟩
  | .hbm, ⟨57, _⟩ => ⟨S3200000, .f32⟩
  | .hbm, ⟨58, _⟩ => ⟨S3200000, .f32⟩
  | .hbm, ⟨59, _⟩ => ⟨S_, .f32⟩
  | .hbm, ⟨60, _⟩ => ⟨S100000x64, .f32⟩
  | .hbm, ⟨61, _⟩ => ⟨S3200000x1, .f32⟩
  | .hbm, ⟨62, _⟩ => ⟨S_, .i32⟩
  | .hbm, ⟨63, _⟩ => ⟨S3200000, .i32⟩
  | .hbm, ⟨64, _⟩ => ⟨S3200000, .i1⟩
  | .hbm, ⟨65, _⟩ => ⟨S_, .i32⟩
  | .hbm, ⟨66, _⟩ => ⟨S3200000, .i32⟩
  | .hbm, ⟨67, _⟩ => ⟨S3200000, .i32⟩
  | .hbm, ⟨68, _⟩ => ⟨S3200000, .i32⟩
  | .hbm, ⟨69, _⟩ => ⟨S3200000x1, .i32⟩
  | .hbm, ⟨70, _⟩ => ⟨S3200000x64, .f32⟩
  | .hbm, ⟨71, _⟩ => ⟨S3200000x64, .f32⟩
  | .hbm, ⟨72, _⟩ => ⟨S3200000x64, .f32⟩
  | .hbm, ⟨73, _⟩ => ⟨S_, .i32⟩
  | .hbm, ⟨74, _⟩ => ⟨S3200000, .i32⟩
  | .hbm, ⟨75, _⟩ => ⟨S3200000, .i1⟩
  | .hbm, ⟨76, _⟩ => ⟨S_, .i32⟩
  | .hbm, ⟨77, _⟩ => ⟨S3200000, .i32⟩
  | .hbm, ⟨78, _⟩ => ⟨S3200000, .i32⟩
  | .hbm, ⟨79, _⟩ => ⟨S3200000, .i32⟩
  | .hbm, ⟨80, _⟩ => ⟨S3200000x1, .i32⟩
  | .hbm, ⟨81, _⟩ => ⟨S100000x64, .f32⟩
  | .hbm, ⟨82, _⟩ => ⟨S1x3, .f32⟩
  | .hbm, ⟨83, _⟩ => ⟨S100000x3, .f32⟩
  | .hbm, ⟨84, _⟩ => ⟨S_, .f32⟩
  | .hbm, ⟨85, _⟩ => ⟨S100000x3, .f32⟩
  | .hbm, ⟨86, _⟩ => ⟨S3200000x1, .f32⟩
  | .hbm, ⟨87, _⟩ => ⟨S_, .i32⟩
  | .hbm, ⟨88, _⟩ => ⟨S3200000, .i32⟩
  | .hbm, ⟨89, _⟩ => ⟨S3200000, .i1⟩
  | .hbm, ⟨90, _⟩ => ⟨S_, .i32⟩
  | .hbm, ⟨91, _⟩ => ⟨S3200000, .i32⟩
  | .hbm, ⟨92, _⟩ => ⟨S3200000, .i32⟩
  | .hbm, ⟨93, _⟩ => ⟨S3200000, .i32⟩
  | .hbm, ⟨94, _⟩ => ⟨S3200000x1, .i32⟩
  | .hbm, ⟨95, _⟩ => ⟨S3200000x3, .f32⟩
  | .hbm, ⟨96, _⟩ => ⟨S3200000x3, .f32⟩
  | .hbm, ⟨97, _⟩ => ⟨S3200000x3, .f32⟩
  | .hbm, ⟨98, _⟩ => ⟨S_, .i32⟩
  | .hbm, ⟨99, _⟩ => ⟨S3200000, .i32⟩
  | .hbm, ⟨100, _⟩ => ⟨S3200000, .i1⟩
  | .hbm, ⟨101, _⟩ => ⟨S_, .i32⟩
  | .hbm, ⟨102, _⟩ => ⟨S3200000, .i32⟩
  | .hbm, ⟨103, _⟩ => ⟨S3200000, .i32⟩
  | .hbm, ⟨104, _⟩ => ⟨S3200000, .i32⟩
  | .hbm, ⟨105, _⟩ => ⟨S3200000x1, .i32⟩
  | .hbm, ⟨106, _⟩ => ⟨S100000x3, .f32⟩
  | .hbm, ⟨107, _⟩ => ⟨S1x256, .f32⟩
  | .hbm, ⟨108, _⟩ => ⟨S1x512, .f32⟩
  | .hbm, ⟨109, _⟩ => ⟨S100000x512, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x3, .f32⟩
  | .local _ .vmem, ⟨5, _⟩ => ⟨S64x3, .f32⟩
  | .local _ .vmem, ⟨6, _⟩ => ⟨S1x3, .f32⟩
  | .local _ .vmem, ⟨7, _⟩ => ⟨S2000x3, .f32⟩
  | .local _ .vmem, ⟨8, _⟩ => ⟨S2000x3, .f32⟩
  | .local _ .vmem, ⟨9, _⟩ => ⟨S2000x3, .f32⟩
  | .local _ .vmem, ⟨10, _⟩ => ⟨S2000x3, .f32⟩
  | .local _ .vmem, ⟨11, _⟩ => ⟨S2000x3, .f32⟩
  | .local _ .vmem, ⟨12, _⟩ => ⟨S2000x3, .f32⟩
  | .local _ .vmem, ⟨13, _⟩ => ⟨S3x256, .f32⟩
  | .local _ .vmem, ⟨14, _⟩ => ⟨S3x256, .f32⟩
  | .local _ .vmem, ⟨15, _⟩ => ⟨S1x256, .f32⟩
  | .local _ .vmem, ⟨16, _⟩ => ⟨S256x512, .f32⟩
  | .local _ .vmem, ⟨17, _⟩ => ⟨S1x512, .f32⟩
  | .local _ .vmem, ⟨18, _⟩ => ⟨S2000x512, .f32⟩
  | .local _ .vmem, ⟨19, _⟩ => ⟨S2000x512, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_c_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S3x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S3200000x1_S3200000x64_0_1 : S3200000x1.BroadcastsInDim S3200000x64 (![0, 1] : Fin 2 → Fin S3200000x64.rank)
  shapeCasts_S3_S1x3 : S3.ShapeCasts S1x3
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  inb_S2000x3_S2000x3_0_0 : ∀ a, (![0, 0] : Fin 2 → Nat) a + S2000x3.size a ≤ S2000x3.size a
  h_S2000x3 : 0 < S2000x3.numel
  bcast_S_S100000x3 : S_.BroadcastsInDim S100000x3 (![] : Fin 0 → Fin S100000x3.rank)
  bcast_S3200000x1_S3200000x3_0_1 : S3200000x1.BroadcastsInDim S3200000x3 (![0, 1] : Fin 2 → Fin S3200000x3.rank)
  shapeCasts_S256_S1x256 : S256.ShapeCasts S1x256
  shapeCasts_S512_S1x512 : S512.ShapeCasts S1x512
  shapeCasts_S2000x3_S2000x3 : S2000x3.ShapeCasts S2000x3
  inb_S3x256_S3x256_0_0 : ∀ a, (![0, 0] : Fin 2 → Nat) a + S3x256.size a ≤ S3x256.size a
  h_S3x256 : 0 < S3x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x3_S2000x3_1_0_0_1_n_n_wf : DotDims.WF S2000x64 S64x3 S2000x3 [1] [0] [0] [1] [] []
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1
  dot_S2000x3_S3x256_S2000x256_1_0_0_1_n_n_wf : DotDims.WF S2000x3 S3x256 S2000x256 [1] [0] [0] [1] [] []
  dot_S2000x256_S256x512_S2000x512_1_0_0_1_n_n_wf : DotDims.WF S2000x256 S256x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x3.size a ≤ S64x3.size a
  hwx0_2 : ∀ i : grid0.Coords, EltTy.bits .f32 = 32 ∨ (Rect.block (s := S64x3) S64x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3.size a ≤ S64x3.size a
  hwx0_3 : ∀ i : grid0.Coords, EltTy.bits .f32 = 32 ∨ (Rect.block (s := S64x3) S64x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x3.size a ≤ S100000x3.size a
  hwx0_5 : ∀ i : grid0.Coords, EltTy.bits .f32 = 32 ∨ (Rect.block (s := S100000x3) S2000x3.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x3.size a ≤ S100000x3.size a
  hwx1_0 : ∀ i : grid1.Coords, EltTy.bits .f32 = 32 ∨ (Rect.block (s := S100000x3) S2000x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x3.size a ≤ S100000x3.size a
  hwx1_1 : ∀ i : grid1.Coords, EltTy.bits .f32 = 32 ∨ (Rect.block (s := S100000x3) S2000x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x256.size a ≤ S3x256.size a
  hwx1_2 : ∀ i : grid1.Coords, EltTy.bits .f32 = 32 ∨ (Rect.block (s := S3x256) S3x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x256.size a ≤ S3x256.size a
  hwx1_3 : ∀ i : grid1.Coords, EltTy.bits .f32 = 32 ∨ (Rect.block (s := S3x256) S3x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x512.size a ≤ S256x512.size a
  hwx1_5 : ∀ i : grid1.Coords, EltTy.bits .f32 = 32 ∨ (Rect.block (s := S256x512) S256x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x512.size a
  hwx1_6 : ∀ i : grid1.Coords, EltTy.bits .f32 = 32 ∨ (Rect.block (s := S1x512) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x512.size a ≤ S100000x512.size a
  hwx1_7 : ∀ i : grid1.Coords, EltTy.bits .f32 = 32 ∨ (Rect.block (s := S100000x512) S2000x512.size (cc1_transform_7 i) (hinb1_7 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x3_S2000x3_1_0_0_1_n_n : DotDims S2000x64 S64x3 S2000x3 where
  lhsContracting := [1]
  rhsContracting := [0]
  lhsNonContracting := [0]
  rhsNonContracting := [1]
  lhsBatch := []
  rhsBatch := []
  wf := dot_S2000x64_S64x3_S2000x3_1_0_0_1_n_n_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def dot_S2000x3_S3x256_S2000x256_1_0_0_1_n_n : DotDims S2000x3 S3x256 S2000x256 where
  lhsContracting := [1]
  rhsContracting := [0]
  lhsNonContracting := [0]
  rhsNonContracting := [1]
  lhsBatch := []
  rhsBatch := []
  wf := dot_S2000x3_S3x256_S2000x256_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v54) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56) S2000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v56) S2000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v74) S2000x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S3x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S3x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v75) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v76) S1x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v77) S2000x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x3 : Shape := ⟨2, ![64, 3]⟩
abbrev S3 : Shape := ⟨1, ![3]⟩
abbrev S3x256 : Shape := ⟨2, ![3, 256]⟩
abbrev S256 : Shape := ⟨1, ![256]⟩
abbrev S256x512 : Shape := ⟨2, ![256, 512]⟩
abbrev S512 : Shape := ⟨1, ![512]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x3 : Shape := ⟨2, ![100000, 3]⟩
abbrev S1x3 : Shape := ⟨2, ![1, 3]⟩
abbrev S3200000x3 : Shape := ⟨2, ![3200000, 3]⟩
abbrev S100000x256 : Shape := ⟨2, ![100000, 256]⟩
abbrev S1x256 : Shape := ⟨2, ![1, 256]⟩
abbrev S100000x512 : Shape := ⟨2, ![100000, 512]⟩
abbrev S1x512 : Shape := ⟨2, ![1, 512]⟩

abbrev nBuf : Space → Nat
  | .hbm => 140
  | .vmem => 0
  | .smem => 0
  | _ => 0

abbrev hbmTy0_0 (i : Nat) : BufTy := match i % 128 with
  | 0 => ⟨S100000x64, .f32⟩
  | 1 => ⟨S2x3200000, .i32⟩
  | 2 => ⟨S64x3, .f32⟩
  | 3 => ⟨S64x3, .f32⟩
  | 4 => ⟨S3, .f32⟩
  | 5 => ⟨S3x256, .f32⟩
  | 6 => ⟨S3x256, .f32⟩
  | 7 => ⟨S256, .f32⟩
  | 8 => ⟨S256x512, .f32⟩
  | 9 => ⟨S512, .f32⟩
  | 10 => ⟨S1x3200000, .i32⟩
  | 11 => ⟨S3200000, .i32⟩
  | 12 => ⟨S1x3200000, .i32⟩
  | 13 => ⟨S3200000, .i32⟩
  | 14 => ⟨S3200000, .i1⟩
  | 15 => ⟨S_, .f32⟩
  | 16 => ⟨S_, .f32⟩
  | 17 => ⟨S3200000, .f32⟩
  | 18 => ⟨S3200000, .f32⟩
  | 19 => ⟨S3200000, .f32⟩
  | 20 => ⟨S3200000, .f32⟩
  | 21 => ⟨S_, .f32⟩
  | 22 => ⟨S100000, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000, .f32⟩
  | 52 => ⟨S3200000, .f32⟩
  | 53 => ⟨S3200000, .f32⟩
  | 54 => ⟨S_, .i32⟩
  | 55 => ⟨S3200000, .i32⟩
  | 56 => ⟨S3200000, .i1⟩
  | 57 => ⟨S_, .i32⟩
  | 58 => ⟨S3200000, .i32⟩
  | 59 => ⟨S3200000, .i32⟩
  | 60 => ⟨S3200000, .i32⟩
  | 61 => ⟨S3200000x1, .i32⟩
  | 62 => ⟨S3200000, .f32⟩
  | 63 => ⟨S3200000, .f32⟩
  | 64 => ⟨S1x3200000, .i32⟩
  | 65 => ⟨S3200000, .i32⟩
  | 66 => ⟨S1x3200000, .i32⟩
  | 67 => ⟨S3200000, .i32⟩
  | 68 => ⟨S_, .f32⟩
  | 69 => ⟨S100000x64, .f32⟩
  | 70 => ⟨S3200000x1, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S3200000x64, .f32⟩
  | 80 => ⟨S3200000x64, .f32⟩
  | 81 => ⟨S3200000x64, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S100000x64, .f32⟩
  | 91 => ⟨S100000x3, .f32⟩
  | 92 => ⟨S100000x3, .f32⟩
  | 93 => ⟨S100000x3, .f32⟩
  | 94 => ⟨S1x3, .f32⟩
  | 95 => ⟨S100000x3, .f32⟩
  | 96 => ⟨S100000x3, .f32⟩
  | 97 => ⟨S_, .f32⟩
  | 98 => ⟨S100000x3, .f32⟩
  | 99 => ⟨S100000x3, .f32⟩
  | 100 => ⟨S1x3200000, .i32⟩
  | 101 => ⟨S3200000, .i32⟩
  | 102 => ⟨S1x3200000, .i32⟩
  | 103 => ⟨S3200000, .i32⟩
  | 104 => ⟨S_, .f32⟩
  | 105 => ⟨S100000x3, .f32⟩
  | 106 => ⟨S3200000x1, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x3, .f32⟩
  | 116 => ⟨S3200000x3, .f32⟩
  | 117 => ⟨S3200000x3, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S100000x3, .f32⟩
  | 127 => ⟨S100000x256, .f32⟩
  | _ => ⟨S100000x64, .f32⟩

abbrev hbmTy0_1 (i : Nat) : BufTy := match i % 128 with
  | 0 => ⟨S100000x256, .f32⟩
  | 1 => ⟨S100000x256, .f32⟩
  | 2 => ⟨S1x256, .f32⟩
  | 3 => ⟨S100000x256, .f32⟩
  | 4 => ⟨S100000x256, .f32⟩
  | 5 => ⟨S_, .f32⟩
  | 6 => ⟨S100000x256, .f32⟩
  | 7 => ⟨S100000x256, .f32⟩
  | 8 => ⟨S100000x512, .f32⟩
  | 9 => ⟨S1x512, .f32⟩
  | 10 => ⟨S100000x512, .f32⟩
  | 11 => ⟨S100000x512, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_v20 : Ref sig .tc := ⟨.hbm, 42, rfl⟩
abbrev main_c_6 : Ref sig .tc := ⟨.hbm, 43, rfl⟩
abbrev main_v21 : Ref sig .tc := ⟨.hbm, 44, rfl⟩
abbrev main_v22 : Ref sig .tc := ⟨.hbm, 45, rfl⟩
abbrev main_c_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_v30 : Ref sig .tc := ⟨.hbm, 55, rfl⟩
abbrev main_v31 : Ref sig .tc := ⟨.hbm, 56, rfl⟩
abbrev main_c_9 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_c_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_v53 : Ref sig .tc := ⟨.hbm, 83, rfl⟩
abbrev main_v54 : Ref sig .tc := ⟨.hbm, 84, rfl⟩
abbrev main_c_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call2_cst : Ref sig .tc := ⟨.hbm, 97, rfl⟩
abbrev main_call2_v0 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_15 : Ref sig .tc := ⟨.hbm, 104, rfl⟩
abbrev main_v71 : Ref sig .tc := ⟨.hbm, 105, rfl⟩
abbrev main_v72 : Ref sig .tc := ⟨.hbm, 106, rfl⟩
abbrev main_c_16 : Ref sig .tc := ⟨.hbm, 107, rfl⟩
abbrev main_v73 : Ref sig .tc := ⟨.hbm, 108, rfl⟩
abbrev main_v74 : Ref sig .tc := ⟨.hbm, 109, rfl⟩
abbrev main_c_17 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_18 : Ref sig .tc := ⟨.hbm, 118, rfl⟩
abbrev main_v82 : Ref sig .tc := ⟨.hbm, 119, rfl⟩
abbrev main_v83 : Ref sig .tc := ⟨.hbm, 120, rfl⟩
abbrev main_c_19 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_call3_cst : Ref sig .tc := ⟨.hbm, 133, rfl⟩
abbrev main_call3_v0 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S3200000x1_S3200000x64_0_1 : S3200000x1.BroadcastsInDim S3200000x64 (![0, 1] : Fin 2 → Fin S3200000x64.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S_S100000x3 : S_.BroadcastsInDim S100000x3 (![] : Fin 0 → Fin S100000x3.rank)
  bcast_S3200000x1_S3200000x3_0_1 : S3200000x1.BroadcastsInDim S3200000x3 (![0, 1] : Fin 2 → Fin S3200000x3.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x3_S100000x3_1_0_0_1_n_n_wf : DotDims.WF S100000x64 S64x3 S100000x3 [1] [0] [0] [1] [] []
  gather_S100000x3_S3200000x1_S3200000x3_1_0_n_n_0_1_13_wf : GatherDims.WF S100000x3 S3200000x1 S3200000x3 [1] [0] [] [0] [] 1 ![1, 3]
  scatter_S100000x3_S3200000x1_S3200000x3_1_0_0_1_wf : ScatterDims.WF S100000x3 S3200000x1 S3200000x3 [1] [0] [0] 1
  dot_S100000x3_S3x256_S100000x256_1_0_0_1_n_n_wf : DotDims.WF S100000x3 S3x256 S100000x256 [1] [0] [0] [1] [] []
  dot_S100000x256_S256x512_S100000x512_1_0_0_1_n_n_wf : DotDims.WF S100000x256 S256x512 S100000x512 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x3_S100000x3_1_0_0_1_n_n : DotDims S100000x64 S64x3 S100000x3 where
  lhsContracting := [1]
  rhsContracting := [0]
  lhsNonContracting := [0]
  rhsNonContracting := [1]
  lhsBatch := []
  rhsBatch := []
  wf := dot_S100000x64_S64x3_S100000x3_1_0_0_1_n_n_wf
def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf
def dot_S100000x3_S3x256_S100000x256_1_0_0_1_n_n : DotDims S100000x3 S3x256 S100000x256 where
  lhsContracting := [1]
  rhsContracting := [0]
  lhsNonContracting := [0]
  rhsNonContracting := [1]
  lhsBatch := []
  rhsBatch := []
  wf := dot_S100000x3_S3x256_S100000x256_1_0_0_1_n_n_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf

class Facts : Prop extends Facts₀ where

variable [Facts]
-- ==== Proof.Pay0.lean ====
/-
  The first kernel's block, entry by entry, over the extended reals.

  A grid point of the first pallas_call loads 2000 rows of the node features `x` and of the propagated features `tx`,
  the two 64×3 weight matrices and the bias row, and stores `max (x·W0 + tx·W1 + b, 0)` for those rows. Read at
  `Ideal` the narrowing to bf16 in front of each product is the identity, and a product into the zero accumulator
  is the plain sum over the 64 contracted columns. So entry `(p, q)` of the stored block is
  `max ((∑ₖ x[p,k]·W0[k,q] + ∑ₖ tx[p,k]·W1[k,q]) + b[0,q], 0)`.
-/
import proofs.«152085_j33036888441456_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx
open scoped BigOperators

/-! ## The 2000×64 by 64×3 product at an entry -/

theorem lhsA_0 (i : S2000x3.Idx) (q : dot_S2000x64_S64x3_S2000x3_1_0_0_1_n_n.contr.Idx) :
    (dot_S2000x64_S64x3_S2000x3_1_0_0_1_n_n.lhsIdx i q 0).val = (i 0).val := by
  unfold DotDims.lhsIdx
  rw [dif_neg (show ¬(0 : Fin S2000x64.rank) ∈ dot_S2000x64_S64x3_S2000x3_1_0_0_1_n_n.lhsBatch by decide), dif_pos (show (0 : Fin S2000x64.rank) ∈ dot_S2000x64_S64x3_S2000x3_1_0_0_1_n_n.lhsNonContracting by decide)]
  rfl
theorem lhsA_1 (i : S2000x3.Idx) (q : dot_S2000x64_S64x3_S2000x3_1_0_0_1_n_n.contr.Idx) :
    (dot_S2000x64_S64x3_S2000x3_1_0_0_1_n_n.lhsIdx i q 1).val = (q ⟨0, by decide⟩).val :=
  dot_S2000x64_S64x3_S2000x3_1_0_0_1_n_n.lhsIdx_val_of_single rfl i q
theorem rhsA_0 (i : S2000x3.Idx) (q : dot_S2000x64_S64x3_S2000x3_1_0_0_1_n_n.contr.Idx) :
    (dot_S2000x64_S64x3_S2000x3_1_0_0_1_n_n.rhsIdx i q 0).val = (q ⟨0, by decide⟩).val :=
  dot_S2000x64_S64x3_S2000x3_1_0_0_1_n_n.rhsIdx_val_of_single rfl i q
theorem rhsA_1 (i : S2000x3.Idx) (q : dot_S2000x64_S64x3_S2000x3_1_0_0_1_n_n.contr.Idx) :
    (dot_S2000x64_S64x3_S2000x3_1_0_0_1_n_n.rhsIdx i q 1).val = (i 1).val := by
  unfold DotDims.rhsIdx
  rw [dif_neg (show ¬(1 : Fin S64x3.rank) ∈ dot_S2000x64_S64x3_S2000x3_1_0_0_1_n_n.rhsBatch by decide), dif_pos (show (1 : Fin S64x3.rank) ∈ dot_S2000x64_S64x3_S2000x3_1_0_0_1_n_n.rhsNonContracting by decide)]
  rfl

/-- A product of a 2000×64 block with a 64×3 matrix into the zero accumulator, at entry `(p, q)`: the sum over the 64
    contracted columns. -/
theorem mulA_apply {φ₁ φ₂ : FTy} (l : FVec Ideal S2000x64 φ₁) (r : FVec Ideal S64x3 φ₂) (p : Fin 2000) (q : Fin 3) :
    matmul dot_S2000x64_S64x3_S2000x3_1_0_0_1_n_n none l r (constant S2000x3 .f32 0x00000000#32) (ix2 p q)
      = ∑ k : Fin 64, l (ix2 p k) * r (ix2 k q) := by
  simp only [matmul]
  rw [Ideal.matmul_constant_zero_apply, ← Equiv.sum_comp (contrEquiv1 dot_S2000x64_S64x3_S2000x3_1_0_0_1_n_n 64 rfl rfl).symm]
  refine Finset.sum_congr rfl fun k _ => ?_
  have hk := contrEquiv1_symm_val dot_S2000x64_S64x3_S2000x3_1_0_0_1_n_n 64 rfl rfl k
  have el : dot_S2000x64_S64x3_S2000x3_1_0_0_1_n_n.lhsIdx (ix2 p q) ((contrEquiv1 dot_S2000x64_S64x3_S2000x3_1_0_0_1_n_n 64 rfl rfl).symm k) = ix2 p k := funext fun a => Fin.ext (by
    match a with
    | ⟨0, _⟩ => exact lhsA_0 _ _
    | ⟨1, _⟩ => exact (lhsA_1 _ _).trans hk)
  have er : dot_S2000x64_S64x3_S2000x3_1_0_0_1_n_n.rhsIdx (ix2 p q) ((contrEquiv1 dot_S2000x64_S64x3_S2000x3_1_0_0_1_n_n 64 rfl rfl).symm k) = ix2 k q := funext fun a => Fin.ext (by
    match a with
    | ⟨0, _⟩ => exact (rhsA_0 _ _).trans hk
    | ⟨1, _⟩ => exact rhsA_1 _ _)
  rw [el, er]

/-- The bias row spread over the 2000 rows, at entry `(p, q)`: the row's entry `q`. -/
theorem biasA_apply (b : Vec Ideal S1x3 .f32) (p : Fin 2000) (q : Fin 3) :
    broadcastTo S2000x3 (shapeCast S1x3 b shapeCasts_S1x3_S1x3) broadcasts_S1x3_S2000x3 (ix2 p q) = b (ix2 0 q) := by
  rw [shapeCast_self]
  exact broadcastTo_apply b broadcasts_S1x3_S2000x3 (ix2 p q) (ix2 0 q) (fun a => match a with
    | ⟨0, _⟩ => by show (0 : Nat) = if (1 : Nat) = 1 then 0 else p.val; rw [if_pos rfl]
    | ⟨1, _⟩ => by show q.val = if (3 : Nat) = 1 then 0 else q.val; rw [if_neg (by decide)])

/-- Entry `(p, q)` of what a grid point of the first kernel stores. -/
theorem pay0_apply (x tx : Vec Ideal S2000x64 .f32) (w0 w1 : Vec Ideal S64x3 .f32) (b : Vec Ideal S1x3 .f32) (p : Fin 2000) (q : Fin 3) :
    k0_pay1 x tx w0 w1 b (ix2 p q)
      = max ((∑ k : Fin 64, x (ix2 p k) * w0 (ix2 k q)) + (∑ k : Fin 64, tx (ix2 p k) * w1 (ix2 k q)) + b (ix2 0 q))
          (Ideal.ofBits .f32 0x00000000#32) := by
  unfold k0_pay1
  rw [maximumf_apply, addf_apply, addf_apply, mulA_apply, mulA_apply, biasA_apply, shapeCast_self]
  rfl

end Cert.KernelIdeal.Dense

end
-- ==== Proof.Region0.lean ====
/-
  The first pallas_call's result array as ONE function of the arrays the region finds.

  The grid has 50 points; point `t` reads rows `2000·t … 2000·t + 1999` of the features `x` and of the propagated
  features `tx` (the two weight matrices and the bias row whole) and writes back the same rows of the result. Row
  `r`, column `q` of the result is therefore `max ((∑ₖ x[r,k]·W0[k,q] + ∑ₖ tx[r,k]·W1[k,q]) + b[0,q], 0)` whatever
  the point that wrote it, and the 50 blocks of 2000 rows tile the 100000 rows.
-/
import proofs.«152085_j33036888441456_1_alg».proof.Proof.Gen.KernelIdeal.Frame
import proofs.«152085_j33036888441456_1_alg».proof.Proof.Pay0

set_option maxRecDepth 16384

noncomputable section

namespace Cert.KernelIdeal.Dense

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- Row `r`, column `q` of `max (x·W0 + tx·W1 + b, 0)`. -/
def h1At (x tx : S100000x64.Idx → EReal) (w0 w1 : S64x3.Idx → EReal) (b : S1x3.Idx → EReal) (r : Fin 100000) (q : Fin 3) : EReal :=
  max ((∑ k : Fin 64, x (ix2 r k) * w0 (ix2 k q)) + (∑ k : Fin 64, tx (ix2 r k) * w1 (ix2 k q)) + b (ix2 0 q))
    (Ideal.ofBits .f32 0x00000000#32)

/-- The 100000×3 array `max (x·W0 + tx·W1 + b, 0)`. -/
def h1Of (x tx : S100000x64.Idx → EReal) (w0 w1 : S64x3.Idx → EReal) (b : S1x3.Idx → EReal) : S100000x3.Idx → EReal :=
  fun i => h1At x tx w0 w1 b ⟨(i 0).val, idx2_lt0 i⟩ ⟨(i 1).val, idx2_lt1 i⟩

variable (V : (c : Dev nD) → (b : Ref sig .tc) → Buf (Elt Ideal) ((c : Thread nD τ).loc b))

theorem zero2 : (![0, 0] : Fin 2 → Nat) = fun _ => 0 := funext fun a => by fin_cases a <;> rfl

theorem point_lt0 (t : Fin cfg0.N) : t.val < 50 := lt_of_lt_of_eq t.isLt N_0

/-- The block index maps over the grid: the row-tiled windows follow the point, the others stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block is its array read at the point's rows -/

theorem xblk_apply (c : Dev nD) (t : Fin cfg0.N) (p : Fin 2000) (k : Fin 64) :
    (iblk0 V c 0 t : Vec Ideal S2000x64 .f32) (ix2 p k)
      = (V c main_arg0 : S100000x64.Idx → EReal) (ix2 ⟨t.val * 2000 + p.val, by have := point_lt0 t; omega⟩ k) := by
  obtain ⟨e0, e1, -⟩ := idx_facts0 t
  show (V c main_arg0 : S100000x64.Idx → EReal) (((cfg0.win 0).blk t).view.emb (ix2 p k)) = _
  refine congrArg (V c main_arg0 : S100000x64.Idx → EReal) ?_
  funext a; apply Fin.ext
  match a with
  | ⟨0, _⟩ => show win0_0.index t (0 : Fin 2) * 2000 + 1 * p.val = t.val * 2000 + p.val; omega
  | ⟨1, _⟩ => show win0_0.index t (1 : Fin 2) * 64 + 1 * k.val = k.val; omega

theorem txblk_apply (c : Dev nD) (t : Fin cfg0.N) (p : Fin 2000) (k : Fin 64) :
    (iblk0 V c 1 t : Vec Ideal S2000x64 .f32) (ix2 p k)
      = (V c main_v54 : S100000x64.Idx → EReal) (ix2 ⟨t.val * 2000 + p.val, by have := point_lt0 t; omega⟩ k) := by
  obtain ⟨-, -, e0, e1, -⟩ := idx_facts0 t
  show (V c main_v54 : S100000x64.Idx → EReal) (((cfg0.win 1).blk t).view.emb (ix2 p k)) = _
  refine congrArg (V c main_v54 : S100000x64.Idx → EReal) ?_
  funext a; apply Fin.ext
  match a with
  | ⟨0, _⟩ => show win0_1.index t (0 : Fin 2) * 2000 + 1 * p.val = t.val * 2000 + p.val; omega
  | ⟨1, _⟩ => show win0_1.index t (1 : Fin 2) * 64 + 1 * k.val = k.val; omega

theorem w0blk_apply (c : Dev nD) (t : Fin cfg0.N) (k : Fin 64) (q : Fin 3) :
    (iblk0 V c 2 t : Vec Ideal S64x3 .f32) (ix2 k q) = (V c main_arg2 : S64x3.Idx → EReal) (ix2 k q) := by
  obtain ⟨-, -, -, -, e0, e1, -⟩ := idx_facts0 t
  show (V c main_arg2 : S64x3.Idx → EReal) (((cfg0.win 2).blk t).view.emb (ix2 k q)) = _
  refine congrArg (V c main_arg2 : S64x3.Idx → EReal) ?_
  funext a; apply Fin.ext
  match a with
  | ⟨0, _⟩ => show win0_2.index t (0 : Fin 2) * 64 + 1 * k.val = k.val; omega
  | ⟨1, _⟩ => show win0_2.index t (1 : Fin 2) * 3 + 1 * q.val = q.val; omega

theorem w1blk_apply (c : Dev nD) (t : Fin cfg0.N) (k : Fin 64) (q : Fin 3) :
    (iblk0 V c 3 t : Vec Ideal S64x3 .f32) (ix2 k q) = (V c main_arg3 : S64x3.Idx → EReal) (ix2 k q) := by
  obtain ⟨-, -, -, -, -, -, e0, e1, -⟩ := idx_facts0 t
  show (V c main_arg3 : S64x3.Idx → EReal) (((cfg0.win 3).blk t).view.emb (ix2 k q)) = _
  refine congrArg (V c main_arg3 : S64x3.Idx → EReal) ?_
  funext a; apply Fin.ext
  match a with
  | ⟨0, _⟩ => show win0_3.index t (0 : Fin 2) * 64 + 1 * k.val = k.val; omega
  | ⟨1, _⟩ => show win0_3.index t (1 : Fin 2) * 3 + 1 * q.val = q.val; omega

theorem bblk_apply (c : Dev nD) (t : Fin cfg0.N) (z : Fin 1) (q : Fin 3) :
    (iblk0 V c 4 t : Vec Ideal S1x3 .f32) (ix2 z q) = (V c main_v55 : S1x3.Idx → EReal) (ix2 z q) := by
  obtain ⟨-, -, -, -, -, -, -, -, e0, e1, -⟩ := idx_facts0 t
  show (V c main_v55 : S1x3.Idx → EReal) (((cfg0.win 4).blk t).view.emb (ix2 z q)) = _
  refine congrArg (V c main_v55 : S1x3.Idx → EReal) ?_
  funext a; apply Fin.ext
  match a with
  | ⟨0, _⟩ => show win0_4.index t (0 : Fin 2) * 1 + 1 * z.val = z.val; omega
  | ⟨1, _⟩ => show win0_4.index t (1 : Fin 2) * 3 + 1 * q.val = q.val; omega

/-- Where entry `(p, q)` of point `t`'s output block lies in the result array: row `2000·t + p`, column `q`. -/
theorem oblk_emb (t : Fin cfg0.N) (p : Fin 2000) (q : Fin 3) :
    (((cfg0.win 5).blk t).view.emb (ix2 p q) : S100000x3.Idx) = ix2 ⟨t.val * 2000 + p.val, by have := point_lt0 t; omega⟩ q := by
  obtain ⟨-, -, -, -, -, -, -, -, -, -, e0, e1⟩ := idx_facts0 t
  funext a; apply Fin.ext
  match a with
  | ⟨0, _⟩ => show win0_5.index t (0 : Fin 2) * 2000 + 1 * p.val = t.val * 2000 + p.val; omega
  | ⟨1, _⟩ => show win0_5.index t (1 : Fin 2) * 3 + 1 * q.val = q.val; omega

/-! ## What a point writes back, the cover, the array -/

/-- What point `t` writes back is block `t` of `max (x·W0 + tx·W1 + b, 0)` of the arrays the region finds. -/
theorem flushed0 (c : Dev nD) (t : Fin cfg0.N) :
    (dat0 V c).flushed 5 t = ((cfg0.win 5).blk t).view.read (Elt Ideal)
      (h1Of (V c main_arg0) (V c main_v54) (V c main_arg2) (V c main_arg3) (V c main_v55)) := by
  show (cfg0.win 5).cut (grid0.coords t) ((dat0 V c).after 5 t) = _
  rw [after0_5]
  unfold out0_5
  rw [View.canon_unit_zero zero2]
  simp only [View.ld_unit_zero (S := S2000x64) zero2, View.ld_unit_zero (S := S64x3) zero2, View.ld_unit_zero (S := S1x3) zero2]
  funext j
  obtain ⟨p, q, rfl⟩ : ∃ (p : Fin 2000) (q : Fin 3), j = ix2 p q := ⟨j 0, j 1, eq_ix2 j⟩
  show k0_pay1 (iblk0 V c 0 t) (iblk0 V c 1 t) (iblk0 V c 2 t) (iblk0 V c 3 t) (iblk0 V c 4 t) (ix2 p q)
    = h1Of (V c main_arg0) (V c main_v54) (V c main_arg2) (V c main_arg3) (V c main_v55) (((cfg0.win 5).blk t).view.emb (ix2 p q))
  rw [oblk_emb t p q]
  refine (pay0_apply (iblk0 V c 0 t) (iblk0 V c 1 t) (iblk0 V c 2 t) (iblk0 V c 3 t) (iblk0 V c 4 t) p q).trans ?_
  show _ = h1At (V c main_arg0) (V c main_v54) (V c main_arg2) (V c main_arg3) (V c main_v55) ⟨t.val * 2000 + p.val, _⟩ q
  unfold h1At
  simp only [xblk_apply V c t, txblk_apply V c t, w0blk_apply V c t, w1blk_apply V c t, bblk_apply V c t]

theorem mem_oblk0 (t : Fin cfg0.N) (i : S100000x3.Idx) :
    i ∈ ((cfg0.win 5).blk t).view.set ↔ ∀ a : Fin 2, win0_5.index t a * S2000x3.size a ≤ (i a).val ∧ (i a).val < win0_5.index t a * S2000x3.size a + S2000x3.size a := by
  show i ∈ ((View.whole main_v56).slice (win0_5.rect t)).set ↔ _
  rw [View.set_slice_whole, Rect.mem_set_unit]
  exact Iff.rfl

/-- Every row lies in the block of the point `row / 2000`. -/
theorem cover0 (i : S100000x3.Idx) : ∃ t : Fin cfg0.N, (cfg0.win 5).flush t = true ∧ i ∈ ((cfg0.win 5).blk t).view.set := by
  have hi0 : (i 0).val < 100000 := idx2_lt0 i
  have hi1 : (i 1).val < 3 := idx2_lt1 i
  have hN : cfg0.N = 50 := N_0
  refine ⟨⟨(i 0).val / 2000, by rw [hN]; omega⟩, flush0_5 _, ?_⟩
  obtain ⟨-, -, -, -, -, -, -, -, -, -, e0, e1⟩ := idx_facts0 ⟨(i 0).val / 2000, by rw [hN]; omega⟩
  rw [mem_oblk0]
  intro a
  match a with
  | ⟨0, _⟩ =>
    show win0_5.index _ (0 : Fin 2) * 2000 ≤ (i 0).val ∧ (i 0).val < win0_5.index _ (0 : Fin 2) * 2000 + 2000
    rw [e0]; show (i 0).val / 2000 * 2000 ≤ (i 0).val ∧ (i 0).val < (i 0).val / 2000 * 2000 + 2000; omega
  | ⟨1, _⟩ =>
    show win0_5.index _ (1 : Fin 2) * 3 ≤ (i 1).val ∧ (i 1).val < win0_5.index _ (1 : Fin 2) * 3 + 3
    rw [e1]; omega

/-- The first pallas_call leaves `max (x·W0 + tx·W1 + b, 0)` of the arrays it finds in its result array. -/
theorem arr0 (c : Dev nD) :
    (dat0 V c).arrAt 5 cfg0.N = h1Of (V c main_arg0) (V c main_v54) (V c main_arg2) (V c main_arg3) (V c main_v55) :=
  (dat0 V c).arrAt_eq_of_cover 5 _ (fun t _ => flushed0 V c t) cover0

end Cert.KernelIdeal.Dense

end
-- ==== Proof.Pay1.lean ====
/-
  The second kernel's block, entry by entry, over the extended reals.

  A grid point of the second pallas_call loads 2000 rows of the hidden features `h` and of their propagated copy `th`,
  the two 3×256 weight matrices, the 256-wide bias row, the 256×512 output matrix and the 512-wide output bias, and
  stores `max (h·W0 + th·W1 + b, 0)·Wl + bl` for those rows. Read at `Ideal` every narrowing to bf16 is the
  identity and every product into the zero accumulator is the plain sum over the contracted axis. So entry `(p, q)` of
  the stored block is `∑ₖ max ((∑ⱼ h[p,j]·W0[j,k] + ∑ⱼ th[p,j]·W1[j,k]) + b[0,k], 0) · Wl[k,q] + bl[0,q]`, with `j` over
  the 3 hidden columns and `k` over the 256 middle columns.
-/
import proofs.«152085_j33036888441456_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx
open scoped BigOperators

/-! ## The 2000×3 by 3×256 product at an entry -/

theorem lhsB_0 (i : S2000x256.Idx) (q : dot_S2000x3_S3x256_S2000x256_1_0_0_1_n_n.contr.Idx) :
    (dot_S2000x3_S3x256_S2000x256_1_0_0_1_n_n.lhsIdx i q 0).val = (i 0).val := by
  unfold DotDims.lhsIdx
  rw [dif_neg (show ¬(0 : Fin S2000x3.rank) ∈ dot_S2000x3_S3x256_S2000x256_1_0_0_1_n_n.lhsBatch by decide), dif_pos (show (0 : Fin S2000x3.rank) ∈ dot_S2000x3_S3x256_S2000x256_1_0_0_1_n_n.lhsNonContracting by decide)]
  rfl
theorem lhsB_1 (i : S2000x256.Idx) (q : dot_S2000x3_S3x256_S2000x256_1_0_0_1_n_n.contr.Idx) :
    (dot_S2000x3_S3x256_S2000x256_1_0_0_1_n_n.lhsIdx i q 1).val = (q ⟨0, by decide⟩).val :=
  dot_S2000x3_S3x256_S2000x256_1_0_0_1_n_n.lhsIdx_val_of_single rfl i q
theorem rhsB_0 (i : S2000x256.Idx) (q : dot_S2000x3_S3x256_S2000x256_1_0_0_1_n_n.contr.Idx) :
    (dot_S2000x3_S3x256_S2000x256_1_0_0_1_n_n.rhsIdx i q 0).val = (q ⟨0, by decide⟩).val :=
  dot_S2000x3_S3x256_S2000x256_1_0_0_1_n_n.rhsIdx_val_of_single rfl i q
theorem rhsB_1 (i : S2000x256.Idx) (q : dot_S2000x3_S3x256_S2000x256_1_0_0_1_n_n.contr.Idx) :
    (dot_S2000x3_S3x256_S2000x256_1_0_0_1_n_n.rhsIdx i q 1).val = (i 1).val := by
  unfold DotDims.rhsIdx
  rw [dif_neg (show ¬(1 : Fin S3x256.rank) ∈ dot_S2000x3_S3x256_S2000x256_1_0_0_1_n_n.rhsBatch by decide), dif_pos (show (1 : Fin S3x256.rank) ∈ dot_S2000x3_S3x256_S2000x256_1_0_0_1_n_n.rhsNonContracting by decide)]
  rfl

/-- A product of a 2000×3 block with a 3×256 matrix into the zero accumulator, at entry `(p, k)`: the sum over the 3
    contracted columns. -/
theorem mulB_apply {φ₁ φ₂ : FTy} (l : FVec Ideal S2000x3 φ₁) (r : FVec Ideal S3x256 φ₂) (p : Fin 2000) (k : Fin 256) :
    matmul dot_S2000x3_S3x256_S2000x256_1_0_0_1_n_n none l r (constant S2000x256 .f32 0x00000000#32) (ix2 p k)
      = ∑ j : Fin 3, l (ix2 p j) * r (ix2 j k) := by
  simp only [matmul]
  rw [Ideal.matmul_constant_zero_apply, ← Equiv.sum_comp (contrEquiv1 dot_S2000x3_S3x256_S2000x256_1_0_0_1_n_n 3 rfl rfl).symm]
  refine Finset.sum_congr rfl fun j _ => ?_
  have hj := contrEquiv1_symm_val dot_S2000x3_S3x256_S2000x256_1_0_0_1_n_n 3 rfl rfl j
  have el : dot_S2000x3_S3x256_S2000x256_1_0_0_1_n_n.lhsIdx (ix2 p k) ((contrEquiv1 dot_S2000x3_S3x256_S2000x256_1_0_0_1_n_n 3 rfl rfl).symm j) = ix2 p j := funext fun a => Fin.ext (by
    match a with
    | ⟨0, _⟩ => exact lhsB_0 _ _
    | ⟨1, _⟩ => exact (lhsB_1 _ _).trans hj)
  have er : dot_S2000x3_S3x256_S2000x256_1_0_0_1_n_n.rhsIdx (ix2 p k) ((contrEquiv1 dot_S2000x3_S3x256_S2000x256_1_0_0_1_n_n 3 rfl rfl).symm j) = ix2 j k := funext fun a => Fin.ext (by
    match a with
    | ⟨0, _⟩ => exact (rhsB_0 _ _).trans hj
    | ⟨1, _⟩ => exact rhsB_1 _ _)
  rw [el, er]

/-! ## The 2000×256 by 256×512 product at an entry -/

theorem lhsC_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem lhsC_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem rhsC_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem rhsC_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- A product of a 2000×256 block with a 256×512 matrix into the zero accumulator, at entry `(p, q)`: the sum over the
    256 contracted columns. -/
theorem mulC_apply {φ₁ φ₂ : FTy} (l : FVec Ideal S2000x256 φ₁) (r : FVec Ideal S256x512 φ₂) (p : Fin 2000) (q : Fin 512) :
    matmul dot_S2000x256_S256x512_S2000x512_1_0_0_1_n_n none l r (constant S2000x512 .f32 0x00000000#32) (ix2 p q)
      = ∑ k : Fin 256, l (ix2 p k) * r (ix2 k q) := by
  simp only [matmul]
  rw [Ideal.matmul_constant_zero_apply, ← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p q) ((contrEquiv1 dot_S2000x256_S256x512_S2000x512_1_0_0_1_n_n 256 rfl rfl).symm k) = ix2 p k := funext fun a => Fin.ext (by
    match a with
    | ⟨0, _⟩ => exact lhsC_0 _ _
    | ⟨1, _⟩ => exact (lhsC_1 _ _).trans hk)
  have er : dot_S2000x256_S256x512_S2000x512_1_0_0_1_n_n.rhsIdx (ix2 p q) ((contrEquiv1 dot_S2000x256_S256x512_S2000x512_1_0_0_1_n_n 256 rfl rfl).symm k) = ix2 k q := funext fun a => Fin.ext (by
    match a with
    | ⟨0, _⟩ => exact (rhsC_0 _ _).trans hk
    | ⟨1, _⟩ => exact rhsC_1 _ _)
  rw [el, er]

/-! ## The two bias rows spread over the 2000 rows -/

theorem biasB_apply (b : Vec Ideal S1x256 .f32) (p : Fin 2000) (k : Fin 256) :
    broadcastTo S2000x256 (shapeCast S1x256 b shapeCasts_S1x256_S1x256) broadcasts_S1x256_S2000x256 (ix2 p k) = b (ix2 0 k) := by
  rw [shapeCast_self]
  exact broadcastTo_apply b broadcasts_S1x256_S2000x256 (ix2 p k) (ix2 0 k) (fun a => match a with
    | ⟨0, _⟩ => by show (0 : Nat) = if (1 : Nat) = 1 then 0 else p.val; rw [if_pos rfl]
    | ⟨1, _⟩ => by show k.val = if (256 : Nat) = 1 then 0 else k.val; rw [if_neg (by decide)])

theorem biasC_apply (b : Vec Ideal S1x512 .f32) (p : Fin 2000) (q : Fin 512) :
    broadcastTo S2000x512 (shapeCast S1x512 b shapeCasts_S1x512_S1x512) broadcasts_S1x512_S2000x512 (ix2 p q) = b (ix2 0 q) := by
  rw [shapeCast_self]
  exact broadcastTo_apply b broadcasts_S1x512_S2000x512 (ix2 p q) (ix2 0 q) (fun a => match a with
    | ⟨0, _⟩ => by show (0 : Nat) = if (1 : Nat) = 1 then 0 else p.val; rw [if_pos rfl]
    | ⟨1, _⟩ => by show q.val = if (512 : Nat) = 1 then 0 else q.val; rw [if_neg (by decide)])

/-! ## The payload -/

/-- The middle value `max (h·W0 + th·W1 + b, 0)` of a block, at entry `(p, k)`. -/
def midAt (h th : Vec Ideal S2000x3 .f32) (w0 w1 : Vec Ideal S3x256 .f32) (b : Vec Ideal S1x256 .f32) (p : Fin 2000) (k : Fin 256) : EReal :=
  max ((∑ j : Fin 3, h (ix2 p j) * w0 (ix2 j k)) + (∑ j : Fin 3, th (ix2 p j) * w1 (ix2 j k)) + b (ix2 0 k))
    (Ideal.ofBits .f32 0x00000000#32)

/-- Entry `(p, q)` of what a grid point of the second kernel stores. -/
theorem pay1_apply (h th : Vec Ideal S2000x3 .f32) (w0 w1 : Vec Ideal S3x256 .f32) (b : Vec Ideal S1x256 .f32)
    (wl : Vec Ideal S256x512 .f32) (bl : Vec Ideal S1x512 .f32) (p : Fin 2000) (q : Fin 512) :
    k1_pay1 h th w0 w1 b wl bl (ix2 p q)
      = (∑ k : Fin 256, midAt h th w0 w1 b p k * wl (ix2 k q)) + bl (ix2 0 q) := by
  unfold k1_pay1
  rw [addf_apply, mulC_apply, biasC_apply]
  refine congrArg (· + bl (ix2 0 q)) (Finset.sum_congr rfl fun k _ => ?_)
  rw [truncf_apply, truncf_apply, maximumf_apply, addf_apply, addf_apply, mulB_apply, mulB_apply, biasB_apply, shapeCast_self, shapeCast_self]
  rfl

end Cert.KernelIdeal.Dense

end
-- ==== Proof.Region1.lean ====
/-
  The second pallas_call's result array as ONE function of the arrays the region finds.

  The grid has 50 points; point `t` reads rows `2000·t … 2000·t + 1999` of the hidden features `h` and of their
  propagated copy `th` (the weight matrices and the two bias rows whole) and writes back the same rows of the result.
  Row `r`, column `q` of the result is `∑ₖ max ((∑ⱼ h[r,j]·W0[j,k] + ∑ⱼ th[r,j]·W1[j,k]) + b[0,k], 0) · Wl[k,q] + bl[0,q]`
  whatever the point that wrote it, and the 50 blocks of 2000 rows tile the 100000 rows.
-/
import proofs.«152085_j33036888441456_1_alg».proof.Proof.Gen.KernelIdeal.Frame
import proofs.«152085_j33036888441456_1_alg».proof.Proof.Pay1

set_option maxRecDepth 16384

noncomputable section

namespace Cert.KernelIdeal.Dense

open Cert.KernelIdeal Cert.KernelIdeal.Gen Idealize.ShloMosaic Idealize.ShloMosaic.TcCoe Idealize.ShloMosaic.ValueIdx Idealize.SL.Sem
open Idealize.ShloMosaic.Pipeline (Dat)
open scoped BigOperators

/-- Row `r`, column `k` of the middle value `max (h·W0 + th·W1 + b, 0)`. -/
def h2At (h th : S100000x3.Idx → EReal) (w0 w1 : S3x256.Idx → EReal) (b : S1x256.Idx → EReal) (r : Fin 100000) (k : Fin 256) : EReal :=
  max ((∑ j : Fin 3, h (ix2 r j) * w0 (ix2 j k)) + (∑ j : Fin 3, th (ix2 r j) * w1 (ix2 j k)) + b (ix2 0 k))
    (Ideal.ofBits .f32 0x00000000#32)

/-- Row `r`, column `q` of `max (h·W0 + th·W1 + b, 0)·Wl + bl`. -/
def outAt (h th : S100000x3.Idx → EReal) (w0 w1 : S3x256.Idx → EReal) (b : S1x256.Idx → EReal)
    (wl : S256x512.Idx → EReal) (bl : S1x512.Idx → EReal) (r : Fin 100000) (q : Fin 512) : EReal :=
  (∑ k : Fin 256, h2At h th w0 w1 b r k * wl (ix2 k q)) + bl (ix2 0 q)

/-- The 100000×512 array `max (h·W0 + th·W1 + b, 0)·Wl + bl`. -/
def outOf (h th : S100000x3.Idx → EReal) (w0 w1 : S3x256.Idx → EReal) (b : S1x256.Idx → EReal)
    (wl : S256x512.Idx → EReal) (bl : S1x512.Idx → EReal) : S100000x512.Idx → EReal :=
  fun i => outAt h th w0 w1 b wl bl ⟨(i 0).val, idx2_lt0 i⟩ ⟨(i 1).val, idx2_lt1 i⟩

variable (V : (c : Dev nD) → (b : Ref sig .tc) → Buf (Elt Ideal) ((c : Thread nD τ).loc b))

theorem zero2' : (![0, 0] : Fin 2 → Nat) = fun _ => 0 := funext fun a => by fin_cases a <;> rfl

theorem point_lt1 (t : Fin cfg1.N) : t.val < 50 := lt_of_lt_of_eq t.isLt N_1

/-- The block index maps over the grid: the row-tiled windows follow the point, the others stay at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-! ## Each input block is its array read at the point's rows -/

theorem hblk_apply (c : Dev nD) (t : Fin cfg1.N) (p : Fin 2000) (j : Fin 3) :
    (iblk1 V c 0 t : Vec Ideal S2000x3 .f32) (ix2 p j)
      = (V c main_v56 : S100000x3.Idx → EReal) (ix2 ⟨t.val * 2000 + p.val, by have := point_lt1 t; omega⟩ j) := by
  obtain ⟨e0, e1, -⟩ := idx_facts1 t
  show (V c main_v56 : S100000x3.Idx → EReal) (((cfg1.win 0).blk t).view.emb (ix2 p j)) = _
  refine congrArg (V c main_v56 : S100000x3.Idx → EReal) ?_
  funext a; apply Fin.ext
  match a with
  | ⟨0, _⟩ => show win1_0.index t (0 : Fin 2) * 2000 + 1 * p.val = t.val * 2000 + p.val; omega
  | ⟨1, _⟩ => show win1_0.index t (1 : Fin 2) * 3 + 1 * j.val = j.val; omega

theorem thblk_apply (c : Dev nD) (t : Fin cfg1.N) (p : Fin 2000) (j : Fin 3) :
    (iblk1 V c 1 t : Vec Ideal S2000x3 .f32) (ix2 p j)
      = (V c main_v74 : S100000x3.Idx → EReal) (ix2 ⟨t.val * 2000 + p.val, by have := point_lt1 t; omega⟩ j) := by
  obtain ⟨-, -, e0, e1, -⟩ := idx_facts1 t
  show (V c main_v74 : S100000x3.Idx → EReal) (((cfg1.win 1).blk t).view.emb (ix2 p j)) = _
  refine congrArg (V c main_v74 : S100000x3.Idx → EReal) ?_
  funext a; apply Fin.ext
  match a with
  | ⟨0, _⟩ => show win1_1.index t (0 : Fin 2) * 2000 + 1 * p.val = t.val * 2000 + p.val; omega
  | ⟨1, _⟩ => show win1_1.index t (1 : Fin 2) * 3 + 1 * j.val = j.val; omega

theorem w0bblk_apply (c : Dev nD) (t : Fin cfg1.N) (j : Fin 3) (k : Fin 256) :
    (iblk1 V c 2 t : Vec Ideal S3x256 .f32) (ix2 j k) = (V c main_arg5 : S3x256.Idx → EReal) (ix2 j k) := by
  obtain ⟨-, -, -, -, e0, e1, -⟩ := idx_facts1 t
  show (V c main_arg5 : S3x256.Idx → EReal) (((cfg1.win 2).blk t).view.emb (ix2 j k)) = _
  refine congrArg (V c main_arg5 : S3x256.Idx → EReal) ?_
  funext a; apply Fin.ext
  match a with
  | ⟨0, _⟩ => show win1_2.index t (0 : Fin 2) * 3 + 1 * j.val = j.val; omega
  | ⟨1, _⟩ => show win1_2.index t (1 : Fin 2) * 256 + 1 * k.val = k.val; omega

theorem w1bblk_apply (c : Dev nD) (t : Fin cfg1.N) (j : Fin 3) (k : Fin 256) :
    (iblk1 V c 3 t : Vec Ideal S3x256 .f32) (ix2 j k) = (V c main_arg6 : S3x256.Idx → EReal) (ix2 j k) := by
  obtain ⟨-, -, -, -, -, -, e0, e1, -⟩ := idx_facts1 t
  show (V c main_arg6 : S3x256.Idx → EReal) (((cfg1.win 3).blk t).view.emb (ix2 j k)) = _
  refine congrArg (V c main_arg6 : S3x256.Idx → EReal) ?_
  funext a; apply Fin.ext
  match a with
  | ⟨0, _⟩ => show win1_3.index t (0 : Fin 2) * 3 + 1 * j.val = j.val; omega
  | ⟨1, _⟩ => show win1_3.index t (1 : Fin 2) * 256 + 1 * k.val = k.val; omega

theorem b2blk_apply (c : Dev nD) (t : Fin cfg1.N) (z : Fin 1) (k : Fin 256) :
    (iblk1 V c 4 t : Vec Ideal S1x256 .f32) (ix2 z k) = (V c main_v75 : S1x256.Idx → EReal) (ix2 z k) := by
  obtain ⟨-, -, -, -, -, -, -, -, e0, e1, -⟩ := idx_facts1 t
  show (V c main_v75 : S1x256.Idx → EReal) (((cfg1.win 4).blk t).view.emb (ix2 z k)) = _
  refine congrArg (V c main_v75 : S1x256.Idx → EReal) ?_
  funext a; apply Fin.ext
  match a with
  | ⟨0, _⟩ => show win1_4.index t (0 : Fin 2) * 1 + 1 * z.val = z.val; omega
  | ⟨1, _⟩ => show win1_4.index t (1 : Fin 2) * 256 + 1 * k.val = k.val; omega

theorem wlblk_apply (c : Dev nD) (t : Fin cfg1.N) (k : Fin 256) (q : Fin 512) :
    (iblk1 V c 5 t : Vec Ideal S256x512 .f32) (ix2 k q) = (V c main_arg8 : S256x512.Idx → EReal) (ix2 k q) := by
  obtain ⟨-, -, -, -, -, -, -, -, -, -, e0, e1, -⟩ := idx_facts1 t
  show (V c main_arg8 : S256x512.Idx → EReal) (((cfg1.win 5).blk t).view.emb (ix2 k q)) = _
  refine congrArg (V c main_arg8 : S256x512.Idx → EReal) ?_
  funext a; apply Fin.ext
  match a with
  | ⟨0, _⟩ => show win1_5.index t (0 : Fin 2) * 256 + 1 * k.val = k.val; omega
  | ⟨1, _⟩ => show win1_5.index t (1 : Fin 2) * 512 + 1 * q.val = q.val; omega

theorem blblk_apply (c : Dev nD) (t : Fin cfg1.N) (z : Fin 1) (q : Fin 512) :
    (iblk1 V c 6 t : Vec Ideal S1x512 .f32) (ix2 z q) = (V c main_v76 : S1x512.Idx → EReal) (ix2 z q) := by
  obtain ⟨-, -, -, -, -, -, -, -, -, -, -, -, e0, e1, -⟩ := idx_facts1 t
  show (V c main_v76 : S1x512.Idx → EReal) (((cfg1.win 6).blk t).view.emb (ix2 z q)) = _
  refine congrArg (V c main_v76 : S1x512.Idx → EReal) ?_
  funext a; apply Fin.ext
  match a with
  | ⟨0, _⟩ => show win1_6.index t (0 : Fin 2) * 1 + 1 * z.val = z.val; omega
  | ⟨1, _⟩ => show win1_6.index t (1 : Fin 2) * 512 + 1 * q.val = q.val; omega

/-- Where entry `(p, q)` of point `t`'s output block lies in the result array: row `2000·t + p`, column `q`. -/
theorem oblk1_emb (t : Fin cfg1.N) (p : Fin 2000) (q : Fin 512) :
    (((cfg1.win 7).blk t).view.emb (ix2 p q) : S100000x512.Idx) = ix2 ⟨t.val * 2000 + p.val, by have := point_lt1 t; omega⟩ q := by
  obtain ⟨-, -, -, -, -, -, -, -, -, -, -, -, -, -, e0, e1⟩ := idx_facts1 t
  funext a; apply Fin.ext
  match a with
  | ⟨0, _⟩ => show win1_7.index t (0 : Fin 2) * 2000 + 1 * p.val = t.val * 2000 + p.val; omega
  | ⟨1, _⟩ => show win1_7.index t (1 : Fin 2) * 512 + 1 * q.val = q.val; omega

/-! ## What a point writes back, the cover, the array -/

/-- What point `t` writes back is block `t` of `max (h·W0 + th·W1 + b, 0)·Wl + bl` of the arrays the region finds. -/
theorem flushed1 (c : Dev nD) (t : Fin cfg1.N) :
    (dat1 V c).flushed 7 t = ((cfg1.win 7).blk t).view.read (Elt Ideal)
      (outOf (V c main_v56) (V c main_v74) (V c main_arg5) (V c main_arg6) (V c main_v75) (V c main_arg8) (V c main_v76)) := by
  show (cfg1.win 7).cut (grid1.coords t) ((dat1 V c).after 7 t) = _
  rw [after1_7]
  unfold out1_7
  rw [View.canon_unit_zero zero2']
  simp only [View.ld_unit_zero (S := S2000x3) zero2', View.ld_unit_zero (S := S3x256) zero2', View.ld_unit_zero (S := S1x256) zero2',
    View.ld_unit_zero (S := S256x512) zero2', View.ld_unit_zero (S := S1x512) zero2']
  funext j
  obtain ⟨p, q, rfl⟩ : ∃ (p : Fin 2000) (q : Fin 512), j = ix2 p q := ⟨j 0, j 1, eq_ix2 j⟩
  show k1_pay1 (iblk1 V c 0 t) (iblk1 V c 1 t) (iblk1 V c 2 t) (iblk1 V c 3 t) (iblk1 V c 4 t) (iblk1 V c 5 t) (iblk1 V c 6 t) (ix2 p q)
    = outOf (V c main_v56) (V c main_v74) (V c main_arg5) (V c main_arg6) (V c main_v75) (V c main_arg8) (V c main_v76) (((cfg1.win 7).blk t).view.emb (ix2 p q))
  rw [oblk1_emb t p q]
  refine (pay1_apply (iblk1 V c 0 t) (iblk1 V c 1 t) (iblk1 V c 2 t) (iblk1 V c 3 t) (iblk1 V c 4 t) (iblk1 V c 5 t) (iblk1 V c 6 t) p q).trans ?_
  show _ = outAt (V c main_v56) (V c main_v74) (V c main_arg5) (V c main_arg6) (V c main_v75) (V c main_arg8) (V c main_v76) ⟨t.val * 2000 + p.val, _⟩ q
  unfold outAt h2At midAt
  simp only [hblk_apply V c t, thblk_apply V c t, w0bblk_apply V c t, w1bblk_apply V c t, b2blk_apply V c t, wlblk_apply V c t, blblk_apply V c t]

theorem mem_oblk1 (t : Fin cfg1.N) (i : S100000x512.Idx) :
    i ∈ ((cfg1.win 7).blk t).view.set ↔ ∀ a : Fin 2, win1_7.index t a * S2000x512.size a ≤ (i a).val ∧ (i a).val < win1_7.index t a * S2000x512.size a + S2000x512.size a := by
  show i ∈ ((View.whole main_v77).slice (win1_7.rect t)).set ↔ _
  rw [View.set_slice_whole, Rect.mem_set_unit]
  exact Iff.rfl

/-- Every row lies in the block of the point `row / 2000`. -/
theorem cover1 (i : S100000x512.Idx) : ∃ t : Fin cfg1.N, (cfg1.win 7).flush t = true ∧ i ∈ ((cfg1.win 7).blk t).view.set := by
  have hi0 : (i 0).val < 100000 := idx2_lt0 i
  have hi1 : (i 1).val < 512 := idx2_lt1 i
  have hN : cfg1.N = 50 := N_1
  refine ⟨⟨(i 0).val / 2000, by rw [hN]; omega⟩, flush1_7 _, ?_⟩
  obtain ⟨-, -, -, -, -, -, -, -, -, -, -, -, -, -, e0, e1⟩ := idx_facts1 ⟨(i 0).val / 2000, by rw [hN]; omega⟩
  rw [mem_oblk1]
  intro a
  match a with
  | ⟨0, _⟩ =>
    show win1_7.index _ (0 : Fin 2) * 2000 ≤ (i 0).val ∧ (i 0).val < win1_7.index _ (0 : Fin 2) * 2000 + 2000
    rw [e0]; show (i 0).val / 2000 * 2000 ≤ (i 0).val ∧ (i 0).val < (i 0).val / 2000 * 2000 + 2000; omega
  | ⟨1, _⟩ =>
    show win1_7.index _ (1 : Fin 2) * 512 ≤ (i 1).val ∧ (i 1).val < win1_7.index _ (1 : Fin 2) * 512 + 512
    rw [e1]; omega

/-- The second pallas_call leaves `max (h·W0 + th·W1 + b, 0)·Wl + bl` of the arrays it finds in its result array. -/
theorem arr1 (c : Dev nD) :
    (dat1 V c).arrAt 7 cfg1.N = outOf (V c main_v56) (V c main_v74) (V c main_arg5) (V c main_arg6) (V c main_v75) (V c main_arg8) (V c main_v76) :=
  (dat1 V c).arrAt_eq_of_cover 7 _ (fun t _ => flushed1 V c t) cover1

end Cert.KernelIdeal.Dense

end
-- ==== Proof.HostK.lean ====
/-
  What the arrays hold when each pallas_call is entered, in the reference's own terms.

  Around the two pallas_calls the kernel's program runs the same chain of host operations as the reference: the two
  rows of the edge list, the self-loop weight `w`, the degree as a scatter-add of `w`, its inverse square root where the
  degree is positive, the edge normalisation `−dinv[src]·w·dinv[dst]`, and the propagation "gather the source rows,
  scale by the normalisation, scatter-add into the destination rows". The chain is named here once, as functions of
  the weight (`degOf`, `dinvOf`, `normOf`), of the normalisation (`prop64`) and of the normalisation and the hidden
  features (`prop3`); both programs' arrays are instances of these functions for ANY float family, since the
  operations are the same ones in the same order. The one difference is `w`: the kernel converts the bit `src ≠ dst`
  to a float, the reference selects between the constants one and zero on that bit; over the extended reals both are
  1 on a set bit and 0 on a cleared one, and that is the only step that is about extended reals.
-/
import proofs.«152085_j33036888441456_1_alg».proof.Proof.Gen.KernelIdeal.Frame
import proofs.«152085_j33036888441456_1_alg».proof.Proof.RefRead
import Idealize.ShloMosaic.Lib.IdealHost

set_option maxRecDepth 16384

noncomputable section

namespace Cert.KernelIdeal.HostK

open Cert.KernelIdeal Cert.KernelIdeal.Gen Idealize.ShloMosaic Idealize.ShloMosaic.TcCoe Idealize.ShloMosaic.ValueIdx Idealize.SL.Sem
open Cert.ReferenceIdeal.ReadP

/-! ## The shared chain, named -/

section Chain
variable {F : FTy → Type} [FloatOps F]

abbrev Edges (F : FTy → Type) := (⟨Cert.ReferenceIdeal.S2x3200000, .i32⟩ : BufTy).Contents (Elt F)
abbrev PerEdge (F : FTy → Type) := (⟨Cert.ReferenceIdeal.S3200000, .f32⟩ : BufTy).Contents (Elt F)
abbrev PerNode (F : FTy → Type) := (⟨Cert.ReferenceIdeal.S100000, .f32⟩ : BufTy).Contents (Elt F)
abbrev Feat (F : FTy → Type) := (⟨Cert.ReferenceIdeal.S100000x64, .f32⟩ : BufTy).Contents (Elt F)
abbrev Hid (F : FTy → Type) := (⟨Cert.ReferenceIdeal.S100000x3, .f32⟩ : BufTy).Contents (Elt F)

/-- The degree: the weights scatter-added at the source nodes. -/
def degOf (w : PerEdge F) (e : Edges F) : PerNode F :=
  Host.scatterAdd Cert.ReferenceIdeal.scatter_S100000_S3200000x1_S3200000_n_0_0_1 (val_main_v7 (F := F)) (val_main_v13 (F := F) e) w
/-- The inverse square root of the degree where it is positive, zero elsewhere. -/
def dinvOf (w : PerEdge F) (e : Edges F) : PerNode F :=
  select (cmpf (F := F) .ogt (degOf w e) (val_main_v15 (F := F))) (Host.rsqrt (maximumf (degOf w e) (val_main_v17 (F := F)))) (val_main_call1_v1 (F := F))
/-- The edge normalisation `−dinv[src]·w·dinv[dst]`. -/
def normOf (w : PerEdge F) (e : Edges F) : PerEdge F :=
  mulf (mulf (Host.negf (Host.gather Cert.ReferenceIdeal.gather_S100000_S3200000x1_S3200000_n_0_n_n_0_1_1 (dinvOf w e) (val_main_v26 (F := F) e))) w)
    (Host.gather Cert.ReferenceIdeal.gather_S100000_S3200000x1_S3200000_n_0_n_n_0_1_1 (dinvOf w e) (val_main_v35 (F := F) e))
/-- The propagation of 64-wide node features: source rows gathered, scaled by `n`, scatter-added at the destinations. -/
def prop64 (n : PerEdge F) (e : Edges F) (x : Feat F) : Feat F :=
  Host.scatterAdd Cert.ReferenceIdeal.scatter_S100000x64_S3200000x1_S3200000x64_1_0_0_1 (val_main_v42 (F := F)) (val_main_v58 (F := F) e)
    (mulf (broadcastInDim Cert.ReferenceIdeal.S3200000x64 ![0, 1] Cert.ReferenceIdeal.Gen.bcast_S3200000x1_S3200000x64_0_1
        (broadcastInDim Cert.ReferenceIdeal.S3200000x1 ![0] Cert.ReferenceIdeal.Gen.bcast_S3200000_S3200000x1_0 n))
      (val_main_v50 (F := F) x e))
/-- The propagation of the 3-wide hidden features `h`. -/
def prop3 (n : PerEdge F) (h : Hid F) (e : Edges F) : Hid F :=
  Host.scatterAdd Cert.ReferenceIdeal.scatter_S100000x3_S3200000x1_S3200000x3_1_0_0_1 (val_main_v71 (F := F)) (val_main_v87 (F := F) e)
    (mulf (broadcastInDim Cert.ReferenceIdeal.S3200000x3 ![0, 1] Cert.ReferenceIdeal.Gen.bcast_S3200000x1_S3200000x3_0_1
        (broadcastInDim Cert.ReferenceIdeal.S3200000x1 ![0] Cert.ReferenceIdeal.Gen.bcast_S3200000_S3200000x1_0 n))
      (Host.gather Cert.ReferenceIdeal.gather_S100000x3_S3200000x1_S3200000x3_1_0_n_n_0_1_13 h (val_main_v78 (F := F) e)))

/-- The kernel's weight: the bit `src ≠ dst` as a float. -/
def weightK (e : Edges F) : PerEdge F := uitofp (F := F) .f32 (cmpi .ne (val_main_v1 (F := F) e) (val_main_v3 (F := F) e))

/-! ### The reference's stages are these functions -/

theorem ref_norm (e : Edges F) : val_main_v37 (F := F) e = normOf (val_main_v6 (F := F) e) e := rfl
theorem ref_tx (x : Feat F) (e : Edges F) : val_main_v59 (F := F) x e = prop64 (val_main_v37 (F := F) e) e x := rfl
theorem ref_th (x0 : Feat F) (x1 : Edges F) (x2 x3 : (⟨Cert.ReferenceIdeal.S64x3, .f32⟩ : BufTy).Contents (Elt F)) (x4 : (⟨Cert.ReferenceIdeal.S3, .f32⟩ : BufTy).Contents (Elt F)) :
    val_main_v88 (F := F) x0 x1 x2 x3 x4 = prop3 (val_main_v37 (F := F) x1) (val_main_v66 (F := F) x0 x1 x2 x3 x4) x1 := rfl

/-! ### The kernel's arrays are these functions -/

variable (m : (ℓ : Loc nD τ sig) → Buf (Elt F) ℓ) (ρ : Dev nD → PrngReg)

theorem k_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp
theorem k_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp
theorem k_arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results_simp

/-- The source row of the edge list. -/
theorem k_src (c : Dev nD) : W3 m ρ c (Proc.devRef .tc main_v1) = val_main_v1 (F := F) (m ((c : Thread nD τ).loc main_arg1)) := by
  show StableHlo.after hostOps0_2 (StableHlo.after hostOps0_1 (StableHlo.after hostOps0 (W0 m ρ c))) (Proc.devRef .tc main_v1) = _
  after_results_simp
  rfl
/-- The destination row of the edge list. -/
theorem k_dst (c : Dev nD) : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The edge normalisation, over the kernel's weight. -/
theorem k_norm (c : Dev nD) : W3 m ρ c (Proc.devRef .tc main_v36)
    = normOf (weightK (m ((c : Thread nD τ).loc main_arg1))) (m ((c : Thread nD τ).loc main_arg1)) := by
  show StableHlo.after hostOps0_2 (StableHlo.after hostOps0_1 (StableHlo.after hostOps0 (W0 m ρ c))) (Proc.devRef .tc main_v36) = _
  after_results_simp
  rfl

/-- The propagated node features, over the kernel's weight. -/
theorem k_tx (c : Dev nD) : V3 m ρ c main_v54
    = prop64 (normOf (weightK (m ((c : Thread nD τ).loc main_arg1))) (m ((c : Thread nD τ).loc main_arg1))) (m ((c : Thread nD τ).loc main_arg1)) (m ((c : Thread nD τ).loc main_arg0)) := by
  show StableHlo.after hostOps0_2 (StableHlo.after hostOps0_1 (StableHlo.after hostOps0 (W0 m ρ c))) (Proc.devRef .tc main_v54) = _
  after_results_simp
  rfl

/-- The first bias as a row. -/
theorem k_bias (c : Dev nD) (q : Fin 3) :
    (V3 m ρ c main_v55 : S1x3.Idx → Elt F .f32) (ix2 0 q) = (m ((c : Thread nD τ).loc main_arg4) : S3.Idx → Elt F .f32) (ix1 q) := by
  show StableHlo.after hostOps0_2 (StableHlo.after hostOps0_1 (StableHlo.after hostOps0 (W0 m ρ c))) (Proc.devRef .tc main_v55) (ix2 0 q) = _
  after_results_simp
  exact shapeCast_apply _ shapeCasts_S3_S1x3 (ix2 0 q) (ix1 q) (by
    rw [Shape.rowMajor_val_two, Shape.rowMajor_val_one]; show q.val = 0 * 3 + q.val; omega)

/-! ### Entering the second call, over what the first call left -/

theorem k_h (c : Dev nD) : V5 m ρ c main_v56 = W4 m ρ c (Proc.devRef .tc main_v56) := by
  show StableHlo.after hostOps1 (W4 m ρ c) (Proc.devRef .tc main_v56) = _
  after_results_simp
theorem k_arg5 (c : Dev nD) : V5 m ρ c main_arg5 = W4 m ρ c (Proc.devRef .tc main_arg5) := by
  show StableHlo.after hostOps1 (W4 m ρ c) (Proc.devRef .tc main_arg5) = _
  after_results_simp
theorem k_arg6 (c : Dev nD) : V5 m ρ c main_arg6 = W4 m ρ c (Proc.devRef .tc main_arg6) := by
  show StableHlo.after hostOps1 (W4 m ρ c) (Proc.devRef .tc main_arg6) = _
  after_results_simp
theorem k_arg8 (c : Dev nD) : V5 m ρ c main_arg8 = W4 m ρ c (Proc.devRef .tc main_arg8) := by
  show StableHlo.after hostOps1 (W4 m ρ c) (Proc.devRef .tc main_arg8) = _
  after_results_simp

/-- The propagated hidden features, over the normalisation and the hidden features the first call left. -/
theorem k_th (c : Dev nD) : V5 m ρ c main_v74
    = prop3 (W4 m ρ c (Proc.devRef .tc main_v36)) (W4 m ρ c (Proc.devRef .tc main_v56)) (m ((c : Thread nD τ).loc main_arg1)) := by
  show StableHlo.after hostOps1 (W4 m ρ c) (Proc.devRef .tc main_v74) = _
  after_results_simp
  rw [W4_of_ne m ρ c main_v1 (by decide), W4_of_ne m ρ c main_v3 (by decide), k_src, k_dst]
  rfl

/-- The second bias as a row. -/
theorem k_bias2 (c : Dev nD) (k : Fin 256) :
    (V5 m ρ c main_v75 : S1x256.Idx → Elt F .f32) (ix2 0 k) = (W4 m ρ c (Proc.devRef .tc main_arg7) : S256.Idx → Elt F .f32) (ix1 k) := by
  show StableHlo.after hostOps1 (W4 m ρ c) (Proc.devRef .tc main_v75) (ix2 0 k) = _
  after_results_simp
  exact shapeCast_apply _ shapeCasts_S256_S1x256 (ix2 0 k) (ix1 k) (by
    rw [Shape.rowMajor_val_two, Shape.rowMajor_val_one]; show k.val = 0 * 256 + k.val; omega)
/-- The output bias as a row. -/
theorem k_biasl (c : Dev nD) (q : Fin 512) :
    (V5 m ρ c main_v76 : S1x512.Idx → Elt F .f32) (ix2 0 q) = (W4 m ρ c (Proc.devRef .tc main_arg9) : S512.Idx → Elt F .f32) (ix1 q) := by
  show StableHlo.after hostOps1 (W4 m ρ c) (Proc.devRef .tc main_v76) (ix2 0 q) = _
  after_results_simp
  exact shapeCast_apply _ shapeCasts_S512_S1x512 (ix2 0 q) (ix1 q) (by
    rw [Shape.rowMajor_val_two, Shape.rowMajor_val_one]; show q.val = 0 * 512 + q.val; omega)

/-- An argument array no host operation writes and the first call does not write is still what was launched. -/
theorem k_w4_arg (c : Dev nD) (b : Ref sig .tc) (hb : ∀ w, Pipeline.arrRef spec0 w ≠ b)
    (h3 : W3 m ρ c (Proc.devRef .tc b) = m ((c : Thread nD τ).loc b)) : W4 m ρ c (Proc.devRef .tc b) = m ((c : Thread nD τ).loc b) :=
  (W4_of_ne m ρ c b hb).trans h3

theorem k3_arg (c : Dev nD) : W3 m ρ c (Proc.devRef .tc main_arg5) = m ((c : Thread nD τ).loc main_arg5)
    ∧ W3 m ρ c (Proc.devRef .tc main_arg6) = m ((c : Thread nD τ).loc main_arg6)
    ∧ W3 m ρ c (Proc.devRef .tc main_arg7) = m ((c : Thread nD τ).loc main_arg7)
    ∧ W3 m ρ c (Proc.devRef .tc main_arg8) = m ((c : Thread nD τ).loc main_arg8)
    ∧ W3 m ρ c (Proc.devRef .tc main_arg9) = m ((c : Thread nD τ).loc main_arg9) := by
  refine ⟨?_, ?_, ?_, ?_, ?_⟩
  · show StableHlo.after hostOps0_2 (StableHlo.after hostOps0_1 (StableHlo.after hostOps0 (W0 m ρ c))) (Proc.devRef .tc main_arg5) = _
    after_results_simp
  · show StableHlo.after hostOps0_2 (StableHlo.after hostOps0_1 (StableHlo.after hostOps0 (W0 m ρ c))) (Proc.devRef .tc main_arg6) = _
    after_results_simp
  · show StableHlo.after hostOps0_2 (StableHlo.after hostOps0_1 (StableHlo.after hostOps0 (W0 m ρ c))) (Proc.devRef .tc main_arg7) = _
    after_results_simp
  · show StableHlo.after hostOps0_2 (StableHlo.after hostOps0_1 (StableHlo.after hostOps0 (W0 m ρ c))) (Proc.devRef .tc main_arg8) = _
    after_results_simp
  · show StableHlo.after hostOps0_2 (StableHlo.after hostOps0_1 (StableHlo.after hostOps0 (W0 m ρ c))) (Proc.devRef .tc main_arg9) = _
    after_results_simp

end Chain

/-! ## Over the extended reals: the two weights agree -/

/-- The bit `src ≠ dst` converted to a float is the select between one and zero on that bit. -/
theorem weight_eq (e : Edges Ideal) : weightK (F := Ideal) e = val_main_v6 (F := Ideal) e := by
  funext i
  show (((cmpi .ne (val_main_v1 (F := Ideal) e) (val_main_v3 (F := Ideal) e) i).toNat : ℝ) : EReal)
    = if cmpi .ne (val_main_v1 (F := Ideal) e) (val_main_v3 (F := Ideal) e) i = 1 then val_main_call0_v0 (F := Ideal) i else val_main_call0_v1 (F := Ideal) i
  rw [val_main_call0_v0_apply, val_main_call0_v1_apply, val_main_cst_apply, val_main_cst_0_apply]
  show _ = if _ = 1 then Ideal.ofBits .f32 0x3F800000#32 else Ideal.ofBits .f32 0x00000000#32
  rw [Ideal.ofBits_one_f32, Ideal.ofBits_zero_f32]
  rcases BitVec.eq_zero_or_eq_one (cmpi .ne (val_main_v1 (F := Ideal) e) (val_main_v3 (F := Ideal) e) i) with h | h <;> rw [h] <;> simp

end Cert.KernelIdeal.HostK

end
-- ==== Proof.RefDense.lean ====
/-
  The reference's dense stages, entry by entry, are the functions the two pallas_calls compute.

  The reference applies `relu (x·W0 + tx·W1 + b)` and then `relu (h·W0' + th·W1' + b')·Wl + bl` to whole arrays: a
  `dot_general` over the single contracted axis is the sum over that axis, a bias is spread over the rows by two
  broadcasts, and `relu` is the maximum with a zero constant. Read at an entry these are exactly `h1Of` and `outOf`,
  the functions of the arrays that the row-tiled kernels write block by block.
-/
import proofs.«152085_j33036888441456_1_alg».proof.Proof.RefRead
import proofs.«152085_j33036888441456_1_alg».proof.Proof.Region0
import proofs.«152085_j33036888441456_1_alg».proof.Proof.Region1

set_option maxRecDepth 16384

noncomputable section

namespace Cert.ReferenceIdeal.DenseR

open Cert.ReferenceIdeal Idealize.ShloMosaic Idealize.ShloMosaic.ValueIdx
open Cert.ReferenceIdeal.ReadP
open Cert.KernelIdeal.Dense (h1Of h1At outOf outAt h2At)
open scoped BigOperators

/-- The reference's first hidden layer is `max (x·W0 + tx·W1 + b, 0)` of its own arrays, `tx` its propagated features
    and `b` any row that holds the bias. -/
theorem hidden_eq (x0 : (⟨S100000x64, .f32⟩ : BufTy).Contents (Elt Ideal)) (x1 : (⟨S2x3200000, .i32⟩ : BufTy).Contents (Elt Ideal))
    (x2 x3 : (⟨S64x3, .f32⟩ : BufTy).Contents (Elt Ideal)) (x4 : (⟨S3, .f32⟩ : BufTy).Contents (Elt Ideal))
    (b : S1x3.Idx → EReal) (hb : ∀ q : Fin 3, b (ix2 0 q) = x4 (ix1 q)) :
    val_main_v66 (F := Ideal) x0 x1 x2 x3 x4 = h1Of x0 (val_main_v59 (F := Ideal) x0 x1) x2 x3 b := by
  funext i
  rw [val_main_v66_apply, val_main_v65_apply, val_main_v62_apply, val_main_v60_apply, val_main_v61_apply, val_main_v64_apply,
    val_main_v63_apply, val_main_call2_v0_apply, val_main_call2_cst_apply]
  unfold h1Of h1At
  rw [hb]
  have el0 : ∀ k : Fin 64, lidx_main_v60 i k = ix2 (⟨(i 0).val, idx2_lt0 i⟩ : Fin 100000) k := fun k =>
    funext fun a => by match a with | ⟨0, _⟩ => rfl | ⟨1, _⟩ => rfl
  have er0 : ∀ k : Fin 64, ridx_main_v60 i k = ix2 k (⟨(i 1).val, idx2_lt1 i⟩ : Fin 3) := fun k =>
    funext fun a => by match a with | ⟨0, _⟩ => rfl | ⟨1, _⟩ => rfl
  have el1 : ∀ k : Fin 64, lidx_main_v61 i k = ix2 (⟨(i 0).val, idx2_lt0 i⟩ : Fin 100000) k := fun k =>
    funext fun a => by match a with | ⟨0, _⟩ => rfl | ⟨1, _⟩ => rfl
  have er1 : ∀ k : Fin 64, ridx_main_v61 i k = ix2 k (⟨(i 1).val, idx2_lt1 i⟩ : Fin 3) := fun k =>
    funext fun a => by match a with | ⟨0, _⟩ => rfl | ⟨1, _⟩ => rfl
  have eb : idx_main_v63 (idx_main_v64 i) = ix1 (⟨(i 1).val, idx2_lt1 i⟩ : Fin 3) :=
    funext fun a => by match a with | ⟨0, _⟩ => rfl
  simp only [el0, er0, el1, er1, eb]
  rfl

/-- The reference's result is `max (h·W0 + th·W1 + b, 0)·Wl + bl` of its own arrays, `h` its hidden layer, `th` the
    propagated hidden layer, `b` and `bl` any rows that hold the two biases. -/
theorem result_eq (x0 : (⟨S100000x64, .f32⟩ : BufTy).Contents (Elt Ideal)) (x1 : (⟨S2x3200000, .i32⟩ : BufTy).Contents (Elt Ideal))
    (x2 x3 : (⟨S64x3, .f32⟩ : BufTy).Contents (Elt Ideal)) (x4 : (⟨S3, .f32⟩ : BufTy).Contents (Elt Ideal))
    (x5 x6 : (⟨S3x256, .f32⟩ : BufTy).Contents (Elt Ideal)) (x7 : (⟨S256, .f32⟩ : BufTy).Contents (Elt Ideal))
    (x8 : (⟨S256x512, .f32⟩ : BufTy).Contents (Elt Ideal)) (x9 : (⟨S512, .f32⟩ : BufTy).Contents (Elt Ideal))
    (b : S1x256.Idx → EReal) (hb : ∀ k : Fin 256, b (ix2 0 k) = x7 (ix1 k))
    (bl : S1x512.Idx → EReal) (hbl : ∀ q : Fin 512, bl (ix2 0 q) = x9 (ix1 q)) :
    val_main_v99 (F := Ideal) x0 x1 x2 x3 x4 x5 x6 x7 x8 x9
      = outOf (val_main_v66 (F := Ideal) x0 x1 x2 x3 x4) (val_main_v88 (F := Ideal) x0 x1 x2 x3 x4) x5 x6 b x8 bl := by
  funext i
  rw [val_main_v99_apply, val_main_v96_apply, val_main_v98_apply, val_main_v97_apply]
  unfold outOf outAt
  rw [hbl]
  have er : ∀ k : Fin 256, ridx_main_v96 i k = ix2 k (⟨(i 1).val, idx2_lt1 i⟩ : Fin 512) := fun k =>
    funext fun a => by match a with | ⟨0, _⟩ => rfl | ⟨1, _⟩ => rfl
  have ebl : idx_main_v97 (idx_main_v98 i) = ix1 (⟨(i 1).val, idx2_lt1 i⟩ : Fin 512) :=
    funext fun a => by match a with | ⟨0, _⟩ => rfl
  have hmid : ∀ k : Fin 256, val_main_v95 (F := Ideal) x0 x1 x2 x3 x4 x5 x6 x7 (lidx_main_v96 i k)
      = h2At (val_main_v66 (F := Ideal) x0 x1 x2 x3 x4) (val_main_v88 (F := Ideal) x0 x1 x2 x3 x4) x5 x6 b (⟨(i 0).val, idx2_lt0 i⟩ : Fin 100000) k := by
    intro k
    rw [val_main_v95_apply, val_main_v94_apply, val_main_v91_apply, val_main_v89_apply, val_main_v90_apply, val_main_v93_apply,
      val_main_v92_apply, val_main_call3_v0_apply, val_main_call3_cst_apply]
    unfold h2At
    rw [hb]
    have fl0 : ∀ j : Fin 3, lidx_main_v89 (lidx_main_v96 i k) j = ix2 (⟨(i 0).val, idx2_lt0 i⟩ : Fin 100000) j := fun j =>
      funext fun a => by match a with | ⟨0, _⟩ => rfl | ⟨1, _⟩ => rfl
    have fr0 : ∀ j : Fin 3, ridx_main_v89 (lidx_main_v96 i k) j = ix2 j k := fun j =>
      funext fun a => by match a with | ⟨0, _⟩ => rfl | ⟨1, _⟩ => rfl
    have fl1 : ∀ j : Fin 3, lidx_main_v90 (lidx_main_v96 i k) j = ix2 (⟨(i 0).val, idx2_lt0 i⟩ : Fin 100000) j := fun j =>
      funext fun a => by match a with | ⟨0, _⟩ => rfl | ⟨1, _⟩ => rfl
    have fr1 : ∀ j : Fin 3, ridx_main_v90 (lidx_main_v96 i k) j = ix2 j k := fun j =>
      funext fun a => by match a with | ⟨0, _⟩ => rfl | ⟨1, _⟩ => rfl
    have fb : idx_main_v92 (idx_main_v93 (lidx_main_v96 i k)) = ix1 k :=
      funext fun a => by match a with | ⟨0, _⟩ => rfl
    simp only [fl0, fr0, fl1, fr1, fb]
    rfl
  simp only [hmid, er, ebl]
  rfl

end Cert.ReferenceIdeal.DenseR

end
-- ==== Proof.lean ====
/-
  Two graph-convolution layers and a linear layer: the tiled kernels against the whole-array reference.

  Both programs compute, from node features `x`, an edge list and weights,
    norm = −dinv[src]·w·dinv[dst]   (w = 1 off self-loops; dinv = deg^(−1/2) where the degree is positive),
    h    = relu (x·W0a + P x·W1a + b1),      out = relu (h·W0b + P h·W1b + b2)·Wl + bl,
  where `P y` gathers the source rows of `y`, scales them by `norm` and scatter-adds them at the destination rows. The
  kernel's program keeps the sparse steps on the host and runs the two dense steps as pallas_calls over 50 blocks of
  2000 rows, its products taken on operands narrowed to bf16. Over the extended reals the narrowing is the identity
  and a product is the sum over the contracted axis, so a block of 2000 rows of the kernel's result is the same
  function of the arrays as those rows of the reference's (Region0, Region1 against RefDense); the host steps are
  the reference's own operations in the same order, the self-loop weight apart, which the kernel converts from a bit
  where the reference selects between one and zero (HostK). So the kernel's result array holds the reference's
  final stage of the same arguments (`result_value`), and the two runs end with equal results. No step uses that
  the inputs are finite: both sides apply the same operations to the same operands.
-/
import proofs.«152085_j33036888441456_1_alg».proof.Defs
import proofs.«152085_j33036888441456_1_alg».proof.Proof.Gen.Kernel
import proofs.«152085_j33036888441456_1_alg».proof.Proof.Gen.Kernel.Skeleton
import proofs.«152085_j33036888441456_1_alg».proof.Proof.Gen.Kernel.Launch
import proofs.«152085_j33036888441456_1_alg».proof.Proof.Gen.Kernel.Points
import proofs.«152085_j33036888441456_1_alg».proof.Proof.Gen.Kernel.Frame
import proofs.«152085_j33036888441456_1_alg».proof.Proof.Gen.KernelIdeal
import proofs.«152085_j33036888441456_1_alg».proof.Proof.Gen.KernelIdeal.Skeleton
import proofs.«152085_j33036888441456_1_alg».proof.Proof.Gen.KernelIdeal.Launch
import proofs.«152085_j33036888441456_1_alg».proof.Proof.Gen.KernelIdeal.Points
import proofs.«152085_j33036888441456_1_alg».proof.Proof.Gen.KernelIdeal.Frame
import proofs.«152085_j33036888441456_1_alg».proof.Proof.Gen.ReferenceIdeal
import proofs.«152085_j33036888441456_1_alg».proof.Proof.Gen.Pre_finite_inputs
import proofs.«152085_j33036888441456_1_alg».proof.Proof.RefRead
import proofs.«152085_j33036888441456_1_alg».proof.Proof.KRun
import proofs.«152085_j33036888441456_1_alg».proof.Proof.Region0
import proofs.«152085_j33036888441456_1_alg».proof.Proof.Region1
import proofs.«152085_j33036888441456_1_alg».proof.Proof.HostK
import proofs.«152085_j33036888441456_1_alg».proof.Proof.RefDense
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-! ## What the kernel's result array holds -/

section KernelValue

open Cert.KernelIdeal Cert.KernelIdeal.Gen Cert.KernelIdeal.Dense Cert.KernelIdeal.HostK
open Cert.ReferenceIdeal.ReadP

variable (m : (ℓ : Loc nD τ sig) → Buf (Elt Ideal) ℓ) (ρ : Dev nD → PrngReg)

/-- The propagated node features the first call finds are the reference's. -/
theorem propagated_eq (c : Dev nD) :
    prop64 (normOf (weightK (m ((c : Thread nD τ).loc main_arg1))) (m ((c : Thread nD τ).loc main_arg1))) (m ((c : Thread nD τ).loc main_arg1)) (m ((c : Thread nD τ).loc main_arg0)) = val_main_v59 (F := Ideal) (m ((c : Thread nD τ).loc main_arg0)) (m ((c : Thread nD τ).loc main_arg1)) := by
  rw [weight_eq, ← ref_norm, ← ref_tx]

/-- After the first call its result array holds the reference's hidden layer of the launch arguments. -/
theorem hidden_value (c : Dev nD) :
    W4 m ρ c (Proc.devRef .tc main_v56) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [show W4 m ρ c (Proc.devRef .tc main_v56) = (dat0 (V3 m ρ) c).arrAt 5 cfg0.N from W4_arr m ρ c 5]
  rw [arr0 (V3 m ρ) c, k_arg0, k_tx, k_arg2, k_arg3, propagated_eq]
  exact (Cert.ReferenceIdeal.DenseR.hidden_eq _ _ _ _ _ (V3 m ρ c main_v55) (k_bias m ρ c)).symm

/-- The edge normalisation is still the reference's when the second call is entered. -/
theorem norm_value (c : Dev nD) : W4 m ρ c (Proc.devRef .tc main_v36) = val_main_v37 (F := Ideal) (m ((c : Thread nD τ).loc main_arg1)) := by
  rw [W4_of_ne m ρ c main_v36 (by decide), k_norm, weight_eq, ← ref_norm]

/-- After the second call its result array holds the reference's final stage of the launch arguments. -/
theorem result_value (c : Dev nD) :
    W6 m ρ c (Proc.devRef .tc main_v77)
      = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  obtain ⟨e5, e6, e7, e8, e9⟩ := k3_arg m ρ c
  rw [show W6 m ρ c (Proc.devRef .tc main_v77) = (dat1 (V5 m ρ) c).arrAt 7 cfg1.N from W6_arr m ρ c 7]
  rw [arr1 (V5 m ρ) c, k_h, k_th, k_arg5, k_arg6, k_arg8, hidden_value, norm_value, ← ref_th,
    k_w4_arg m ρ c main_arg5 (by decide) e5, k_w4_arg m ρ c main_arg6 (by decide) e6, k_w4_arg m ρ c main_arg8 (by decide) e8]
  exact (Cert.ReferenceIdeal.DenseR.result_eq _ _ _ _ _ _ _ _ _ _
    (V5 m ρ c main_v75) (fun k => (k_bias2 m ρ c k).trans (congrFun (k_w4_arg m ρ c main_arg7 (by decide) e7) _))
    (V5 m ρ c main_v76) (fun q => (k_biasl m ρ c q).trans (congrFun (k_w4_arg m ρ c main_arg9 (by decide) e9) _))).symm

end KernelValue

/-! ## The claims -/

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunP.run (F := Ideal) m ρ)

/-- Both runs end with the reference's final stage of the arguments in their result arrays, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W6 m ρ c (Proc.devRef .tc Cert.KernelIdeal.main_v77),
    Cert.KernelIdeal.Named.run_named (F := Ideal) m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8, h9⟩ := hagree c
  rw [Cert.ReferenceIdeal.ReadP.val_main_v99_eq, h0, h1, h2, h3, h4, h5, h6, h7, h8, h9]
  exact (result_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
